-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S512x512 : Shape := ⟨2, ![512, 512]⟩
abbrev S512 : Shape := ⟨1, ![512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg2 : FVec F S512 .f32) (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_cst_8 : FVec F S_ .f32 := constant S_ .f32 0x00000000#32
  let main_v24 : FVec F S512 .f32 := broadcastInDim S512 ![] bcast_S_S512 main_cst_8
  let main_v25 : IVec S512 1 := cmpf .une main_arg2 main_v24
  let main_c_9 : IVec S_ 1 := constantI S_ 1 1#1
  let main_v26 : IVec S_ 1 := (fun x v => Host.reduce IntOp.andi x v reducesTo_S512_S_d0 h_S_) main_v25 main_c_9
  let main_v27 : IVec S_ 1 := andi main_v23 main_v26
  main_v27

def fn {F : FTy → Type} [FloatOps F] (main_arg0 : FVec F S4x8192x512 .f32) (main_arg1 : FVec F S512x512 .f32) (main_arg2 : FVec F S512 .f32) (main_arg3 : FVec F S512x512 .f32) (main_arg4 : FVec F S512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg2 main_arg4 main_v13 main_v16
-- ==== Kernel.lean ====
abbrev S4x8192x512 : Shape := ⟨3, ![4, 8192, 512]⟩
abbrev S512x512 : Shape := ⟨2, ![512, 512]⟩
abbrev S512 : Shape := ⟨1, ![512]⟩
abbrev S32768x512 : Shape := ⟨2, ![32768, 512]⟩
abbrev S_ : Shape := ⟨0, ![]⟩
abbrev S1x512 : Shape := ⟨2, ![1, 512]⟩
abbrev S512x1 : Shape := ⟨2, ![512, 1]⟩
abbrev S1024x512 : Shape := ⟨2, ![1024, 512]⟩
abbrev S1024 : Shape := ⟨1, ![1024]⟩
abbrev S1024x1 : Shape := ⟨2, ![1024, 1]⟩

abbrev nBuf : Space → Nat
  | .hbm => 24
  | .vmem => 9
  | .smem => 0
  | _ => 0

abbrev bufTy : (tb : Table) → Fin (tcTables nBuf tb) → BufTy
  | .hbm, ⟨0, _⟩ => ⟨S4x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S32768x512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S1x512, .f32⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S1x512, .f32⟩
  | .hbm, ⟨22, _⟩ => ⟨S32768x512, .f32⟩
  | .hbm, ⟨23, _⟩ => ⟨S4x8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x8192x512_S32768x512 : S4x8192x512.ShapeCasts S32768x512
  bcast_S_S512 : S_.BroadcastsInDim S512 (![] : Fin 0 → Fin S512.rank)
  shapeCasts_S512_S1x512 : S512.ShapeCasts S1x512
  bcast_S1x512_S512x512_0_1 : S1x512.BroadcastsInDim S512x512 (![0, 1] : Fin 2 → Fin S512x512.rank)
  reducesTo_S512x512_S512_d1 : S512x512.ReducesTo [1] S512
  h_S_ : 0 < S_.numel
  bcast_S512_S512x1_0 : S512.BroadcastsInDim S512x1 (![0] : Fin 1 → Fin S512x1.rank)
  shapeCasts_S512x1_S1x512 : S512x1.ShapeCasts S1x512
  transposes_S512x512_S512x512_1_0 : S512x512.Transposes [1, 0] S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1024x1_S1024x512 : S1024x1.Broadcasts S1024x512
  shapeCasts_S32768x512_S4x8192x512 : S32768x512.ShapeCasts S4x8192x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x512 : Shape := ⟨3, ![4, 8192, 512]⟩
abbrev S512x512 : Shape := ⟨2, ![512, 512]⟩
abbrev S512 : Shape := ⟨1, ![512]⟩
abbrev S32768x512 : Shape := ⟨2, ![32768, 512]⟩
abbrev S1x512 : Shape := ⟨2, ![1, 512]⟩
abbrev S_ : Shape := ⟨0, ![]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S32768x512, .f32⟩
  | .hbm, ⟨6, _⟩ => ⟨S1x512, .f32⟩
  | .hbm, ⟨7, _⟩ => ⟨S32768x512, .f32⟩
  | .hbm, ⟨8, _⟩ => ⟨S32768x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S32768x512, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S512x512, .f32⟩
  | .hbm, ⟨17, _⟩ => ⟨S_, .f32⟩
  | .hbm, ⟨18, _⟩ => ⟨S512, .f32⟩
  | .hbm, ⟨19, _⟩ => ⟨S1x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S512x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S512x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  shapeCasts_S4x8192x512_S32768x512 : S4x8192x512.ShapeCasts S32768x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S1x512_S512x512_0_1 : S1x512.BroadcastsInDim S512x512 (![0, 1] : Fin 2 → Fin S512x512.rank)
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S512x512_S512_d1 : S512x512.ReducesTo [1] S512
  bcast_S32768x1_S32768x512_0_1 : S32768x1.BroadcastsInDim S32768x512 (![0, 1] : Fin 2 → Fin S32768x512.rank)
  transposes_S512x512_S512x512_1_0 : S512x512.Transposes [1, 0] S512x512
  bcast_S_S32768x512 : S_.BroadcastsInDim S32768x512 (![] : Fin 0 → Fin S32768x512.rank)
  shapeCasts_S32768x512_S4x8192x512 : S32768x512.ShapeCasts S4x8192x512
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Spec.lean ====
/-
  The mathematics both programs compute, as ONE function of scaled entries.

  With rows `xs r` (a row of the flattened input, each coordinate scaled by the length scale of its feature) and
  centres `cs k` (likewise scaled), the radial feature of row `r` against centre `k` is
      exp (-1/2 · max (‖xs r‖² + ‖cs k‖² - 2 · ⟨xs r, cs k⟩, 0)),
  the squared distance by its cross-term expansion, clamped at zero; the output entry `(r, j)` is the sum over the
  centres `k` of that feature times `W (j, k)`, plus the bias `B j`. The two programs differ only in how an entry is
  scaled: one MULTIPLIES by the reciprocal `1 / ℓ` taken once, the other DIVIDES by `ℓ`. On the extended reals the two
  agree exactly when `ℓ ≠ 0`: off zero both are the product with `ℓ⁻¹`; at `ℓ = 0` the quotient `0 / 0` and the
  product `0 · (1 / 0)` are different values, which is why the length scale is required to be nonzero.
-/
import Idealize.ShloMosaic.PureOps.Ideal
import Idealize.ShloMosaic.PureOps.Ideal.Laws
import Idealize.ShloMosaic.Lib.ValueIdx
import Idealize.ShloMosaic.Lib.IdealHost

noncomputable section

namespace Cert.Rbf

open Idealize.ShloMosaic Idealize.ShloMosaic.ValueIdx

/-- The flattened input and the output: 32768 rows of 512 features. -/
abbrev Rows : Shape := ⟨2, ![32768, 512]⟩
/-- The centres (one per row) and the projection matrix. -/
abbrev Square : Shape := ⟨2, ![512, 512]⟩
/-- A vector over the 512 features. -/
abbrev Feat : Shape := ⟨1, ![512]⟩

/-- Minus one half, two and zero, as the f32 words both programs carry; they are never evaluated. -/
abbrev negHalf : EReal := Ideal.ofBits .f32 0xBF000000#32
abbrev two : EReal := Ideal.ofBits .f32 0x40000000#32
abbrev zero32 : EReal := Ideal.ofBits .f32 0x00000000#32

/-- The squared distance between a scaled row and a scaled centre, by the cross-term expansion. -/
def sqDist (u v : Fin 512 → EReal) : EReal :=
  ((∑ d : Fin 512, u d * u d) + ∑ d : Fin 512, v d * v d) - two * ∑ d : Fin 512, u d * v d

/-- The radial feature of a scaled row against a scaled centre. -/
def feature (u v : Fin 512 → EReal) : EReal :=
  Ideal.exp (negHalf * max (sqDist u v) zero32)

/-- The output at row `i 0`, channel `i 1`: the features against every centre, projected by row `i 1` of `W`, plus the
    bias. -/
def project (xs : Fin 32768 → Fin 512 → EReal) (cs : Fin 512 → Fin 512 → EReal)
    (W : Square.Idx → EReal) (B : Feat.Idx → EReal) : Rows.Idx → EReal := fun i =>
  (∑ k : Fin 512, feature (xs (i 0)) (cs k) * W (ix2 (i 1) k)) + B (ix1 (i 1))

/-- An array of rows over the features, each entry TIMES the reciprocal of its feature's length scale. -/
def scaleByRecip {n : Nat} (A : (⟨2, ![n, 512]⟩ : Shape).Idx → EReal) (L : Feat.Idx → EReal) :
    Fin n → Fin 512 → EReal := fun r d => A (ix2 r d) * Ideal.div 1 (L (ix1 d))

/-- The same array, each entry DIVIDED by its feature's length scale. -/
def scaleByDiv {n : Nat} (A : (⟨2, ![n, 512]⟩ : Shape).Idx → EReal) (L : Feat.Idx → EReal) :
    Fin n → Fin 512 → EReal := fun r d => Ideal.div (A (ix2 r d)) (L (ix1 d))

/-- Off zero, dividing is multiplying by the reciprocal: both are the product with `ℓ⁻¹`. (No finiteness is used: for
    `ℓ = ±∞` both sides are `a · 0`.) -/
theorem mul_recip_eq_div {a l : EReal} (h : l ≠ 0) : a * Ideal.div 1 l = Ideal.div a l := by
  unfold Ideal.div
  rw [if_neg h, if_neg h, one_mul]

theorem scaleByRecip_eq_scaleByDiv {n : Nat} (A : (⟨2, ![n, 512]⟩ : Shape).Idx → EReal) (L : Feat.Idx → EReal)
    (hL : ∀ d : Fin 512, L (ix1 d) ≠ 0) : scaleByRecip A L = scaleByDiv A L :=
  funext fun _ => funext fun d => mul_recip_eq_div (hL d)

/-- What the kernel computes over the flattened input: entries scaled by the reciprocal. -/
def viaRecip (X : Rows.Idx → EReal) (C : Square.Idx → EReal) (L : Feat.Idx → EReal)
    (W : Square.Idx → EReal) (B : Feat.Idx → EReal) : Rows.Idx → EReal :=
  project (scaleByRecip X L) (scaleByRecip C L) W B

/-- What the reference computes: entries scaled by division. -/
def viaDiv (X : Rows.Idx → EReal) (C : Square.Idx → EReal) (L : Feat.Idx → EReal)
    (W : Square.Idx → EReal) (B : Feat.Idx → EReal) : Rows.Idx → EReal :=
  project (scaleByDiv X L) (scaleByDiv C L) W B

/-- With every length scale nonzero the two are one function. -/
theorem viaRecip_eq_viaDiv (X : Rows.Idx → EReal) (C : Square.Idx → EReal) (L : Feat.Idx → EReal)
    (W : Square.Idx → EReal) (B : Feat.Idx → EReal) (hL : ∀ d : Fin 512, L (ix1 d) ≠ 0) :
    viaRecip X C L W B = viaDiv X C L W B := by
  unfold viaRecip viaDiv
  rw [scaleByRecip_eq_scaleByDiv X L hL, scaleByRecip_eq_scaleByDiv C L hL]

end Cert.Rbf

end
-- ==== Proof.RefValue.lean ====
/-
  The reference's result, before its final reshape, is `Cert.Rbf.viaDiv` of the flattened input: read stage by stage at
  explicit coordinates, inside out. A scaled entry is a quotient by the feature's length scale; the two squared norms
  are sums over the features (the host sum's zero initial value dropped); the cross term is the product of the scaled
  rows with the transposed scaled centres, a sum over the features; the projection contracts the features of a row
  against row `j` of `W` (the product with the transpose), and the bias is broadcast along the rows.
-/
import proofs.«134871_j61186104098901_1_alg».proof.Proof.Gen.ReferenceIdeal.Read
import proofs.«134871_j61186104098901_1_alg».proof.Proof.Spec

noncomputable section

namespace Cert.Rbf.Ref

open Idealize.ShloMosaic Idealize.ShloMosaic.ValueIdx
open Cert.ReferenceIdeal Cert.ReferenceIdeal.Gen Cert.ReferenceIdeal.Read

/-- Two indices of a rank-1 (rank-2) shape with the same coordinates are equal. -/
local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))

variable (x0 : (⟨S4x8192x512, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal))

/-- The flattened input. -/
abbrev flat : Rows.Idx → EReal := val_main_v0 (F := Ideal) x0

/-- A scaled entry of the flattened input: the entry divided by its feature's length scale. -/
theorem row_entry (r : Fin 32768) (d : Fin 512) :
    val_main_v3 (F := Ideal) x0 x2 (ix2 r d) = scaleByDiv (flat x0) x2 r d := by
  rw [val_main_v3_apply, val_main_v2_apply, val_main_v1_apply]
  show Ideal.div (val_main_v0 (F := Ideal) x0 (ix2 r d)) (x2 _) = Ideal.div (val_main_v0 (F := Ideal) x0 (ix2 r d)) (x2 (ix1 d))
  exact congrArg (fun j => Ideal.div (val_main_v0 (F := Ideal) x0 (ix2 r d)) (x2 j)) (by idx1)

/-- A scaled entry of the centres. -/
theorem centre_entry (k : Fin 512) (d : Fin 512) :
    val_main_v6 (F := Ideal) x1 x2 (ix2 k d) = scaleByDiv x1 x2 k d := by
  rw [val_main_v6_apply, val_main_v5_apply, val_main_v4_apply]
  show Ideal.div (x1 (ix2 k d)) (x2 _) = Ideal.div (x1 (ix2 k d)) (x2 (ix1 d))
  exact congrArg (fun j => Ideal.div (x1 (ix2 k d)) (x2 j)) (by idx1)

/-- The squared norm of a scaled row, broadcast along the centres. -/
theorem row_norm (r : Fin 32768) (k : Fin 512) :
    val_main_v13 (F := Ideal) x0 x2 (ix2 r k)
      = ∑ d : Fin 512, scaleByDiv (flat x0) x2 r d * scaleByDiv (flat x0) x2 r d := by
  rw [val_main_v13_apply, val_main_v9_apply, val_main_v8_apply, val_main_cst_apply]
  show Ideal.ofBits .f32 0x00000000#32 + _ = _
  rw [Ideal.ofBits_zero_f32, zero_add]
  refine Finset.sum_congr rfl fun d _ => ?_
  rw [show idx_main_v8 (idx_main_v9 (idx_main_v13 (ix2 r k))) d = ix2 r d from by idx2, val_main_v7_apply, row_entry]
  rfl

/-- The squared norm of a scaled centre, broadcast along the rows. -/
theorem centre_norm (r : Fin 32768) (k : Fin 512) :
    val_main_v14 (F := Ideal) x1 x2 (ix2 r k) = ∑ d : Fin 512, scaleByDiv x1 x2 k d * scaleByDiv x1 x2 k d := by
  rw [val_main_v14_apply, val_main_v12_apply, val_main_v11_apply, val_main_cst_0_apply]
  show Ideal.ofBits .f32 0x00000000#32 + _ = _
  rw [Ideal.ofBits_zero_f32, zero_add]
  refine Finset.sum_congr rfl fun d _ => ?_
  rw [show idx_main_v11 (idx_main_v12 (idx_main_v14 (ix2 r k))) d = ix2 k d from by idx2, val_main_v10_apply, centre_entry]
  rfl

/-- The cross term: the scaled row against the scaled centre, summed over the features. -/
theorem cross (r : Fin 32768) (k : Fin 512) :
    val_main_v17 (F := Ideal) x0 x1 x2 (ix2 r k)
      = ∑ d : Fin 512, scaleByDiv (flat x0) x2 r d * scaleByDiv x1 x2 k d := by
  rw [val_main_v17_apply]
  refine Finset.sum_congr rfl fun d _ => ?_
  rw [show lidx_main_v17 (ix2 r k) d = ix2 r d from by idx2, row_entry, val_main_v16_apply,
    show idx_main_v16 (ridx_main_v17 (ix2 r k) d) = ix2 k d from by idx2, centre_entry]

/-- The radial feature of row `r` against centre `k`. -/
theorem feature_entry (r : Fin 32768) (k : Fin 512) :
    val_main_v25 (F := Ideal) x0 x1 x2 (ix2 r k)
      = feature (scaleByDiv (flat x0) x2 r) (scaleByDiv x1 x2 k) := by
  rw [val_main_v25_apply, val_main_v24_apply, val_main_v23_apply, val_main_cst_3_apply, val_main_v22_apply,
    val_main_v21_apply, val_main_cst_2_apply, val_main_v20_apply, val_main_v15_apply, val_main_v19_apply,
    val_main_v18_apply, val_main_cst_1_apply, row_norm, centre_norm, cross]
  rfl

/-- The reference's result before the final reshape is the spec's function of the flattened input. -/
theorem result_eq : val_main_v30 (F := Ideal) x0 x1 x2 x3 x4 = viaDiv (flat x0) x1 x2 x3 x4 := by
  funext i
  obtain ⟨r, j, rfl⟩ : ∃ (r : Fin 32768) (j : Fin 512), i = ix2 r j := ⟨i 0, i 1, eq_ix2 i⟩
  rw [val_main_v30_apply, val_main_v27_apply, val_main_v29_apply, val_main_v28_apply]
  show (∑ k : Fin 512, _) + x4 _ = (∑ k : Fin 512, _) + x4 (ix1 j)
  refine congrArg₂ (· + ·) (Finset.sum_congr rfl fun k _ => ?_) (congrArg x4 (by idx1))
  rw [show lidx_main_v27 (ix2 r j) k = ix2 r k from by idx2, feature_entry, val_main_v26_apply,
    show idx_main_v26 (ridx_main_v27 (ix2 r j) k) = ix2 j k from by idx2]

end Cert.Rbf.Ref

end
-- ==== Proof.Payload.lean ====
/-
  The kernel body's one stored value, read at an entry of the block.

  The body scales its block of rows by the row of reciprocals, takes each scaled row's squared norm (a sum along the
  features, kept as a column and broadcast back), contracts the scaled rows against the transposed scaled centres (the
  matrix product into a zero accumulator: a sum over the features), forms squared norm + centre norm - 2 · cross term,
  clamps at zero, multiplies by -1/2 and exponentiates, contracts those features against the transposed projection
  matrix (a sum over the centres) and adds the bias row. Changes of float format are the identity on the extended
  reals. The stages are named one by one below and each is read at an index; the last theorem states the stored value
  at `(p, q)` under names for what the loaded blocks hold.
-/
import proofs.«134871_j61186104098901_1_alg».proof.Proof.Gen.KernelIdeal.Skeleton
import proofs.«134871_j61186104098901_1_alg».proof.Proof.Spec
import Idealize.ShloMosaic.Lib.Pipeline.Value
import Idealize.ShloMosaic.Lib.ValueIdx
import Idealize.ShloMosaic.PureOps.Ideal.Laws

noncomputable section

namespace Cert.Rbf.Body

open Idealize.ShloMosaic Idealize.ShloMosaic.ValueIdx
open Cert.KernelIdeal Cert.KernelIdeal.Gen

local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))

/-! ## The layout operations of the body, read at an entry -/

/-- A row `[1, 512]` broadcast down the 1024 rows of a block. -/
theorem bcastRow_apply {α : Type} (v : S1x512.Idx → α) (p : Fin 1024) (d : Fin 512) :
    broadcastTo S1024x512 v broadcasts_S1x512_S1024x512 (ix2 p d) = v (ix2 0 d) :=
  broadcastTo_apply v broadcasts_S1x512_S1024x512 (ix2 p d) (ix2 0 d) (fun a => match a with
    | ⟨0, _⟩ => by show (0 : Nat) = if (1 : Nat) = 1 then 0 else _; rw [if_pos rfl]
    | ⟨1, _⟩ => by show d.val = if (512 : Nat) = 1 then 0 else _; rw [if_neg (by decide)]; rfl)

/-- A column `[1024, 1]` broadcast across the 512 columns of a block. -/
theorem bcastCol_apply {α : Type} (v : S1024x1.Idx → α) (p : Fin 1024) (k : Fin 512) :
    broadcastTo S1024x512 v broadcasts_S1024x1_S1024x512 (ix2 p k) = v (ix2 p 0) :=
  broadcastTo_apply v broadcasts_S1024x1_S1024x512 (ix2 p k) (ix2 p 0) (fun a => match a with
    | ⟨0, _⟩ => by show p.val = if (1024 : Nat) = 1 then 0 else _; rw [if_neg (by decide)]; rfl
    | ⟨1, _⟩ => by show (0 : Nat) = if (1 : Nat) = 1 then 0 else _; rw [if_pos rfl])

/-- A vector `[1024]` recast as a column `[1024, 1]`. -/
theorem colCast_apply {α : Type} (v : S1024.Idx → α) (p : Fin 1024) :
    shapeCast S1024x1 v shapeCasts_S1024_S1024x1 (ix2 p 0) = v (ix1 p) :=
  shapeCast_apply v shapeCasts_S1024_S1024x1 (ix2 p 0) (ix1 p)
    (by rewrite [Shape.rowMajor_val_one, Shape.rowMajor_val_two]; show p.val = p.val * 1 + 0; omega)

/-- A block's sum along the features, at row `p`. -/
theorem rowSum_apply (v : FVec Ideal S1024x512 .f32) (hφ : FKind.Formats .f32)
    (hacc : (0x00000000#32 : BitVec 32) = 0x00000000#32) (p : Fin 1024) :
    multiReduction (F := Ideal) .add [1] S1024 v 0x00000000#32 reduces_S1024x512_S1024 hφ hacc (ix1 p)
      = ∑ d : Fin 512, v (ix2 p d) := by
  refine (Ideal.multiReduction_add_single v 0x00000000#32 reduces_S1024x512_S1024 hφ hacc (ix1 p)).trans ?_
  exact Finset.sum_congr rfl fun d _ => congrArg v (by idx2)

/-! ## The body's matrix product: rows of the left operand against columns of the right -/

theorem lhs_axis0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_axis1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_axis0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_axis1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero accumulator at `(p, q)`: the sum over the shared axis. -/
theorem product_apply {φ₁ φ₂ : FTy} (l : FVec Ideal S1024x512 φ₁) (r : FVec Ideal S512x512 φ₂) (p : Fin 1024) (q : Fin 512) :
    matmul dot_S1024x512_S512x512_S1024x512_1_0_0_1_n_n none l r (constant (F := Ideal) S1024x512 .f32 0x00000000#32) (ix2 p q)
      = ∑ k : Fin 512, l (ix2 p k) * r (ix2 k q) := by
  refine (Ideal.matmul_constant_zero_apply dot_S1024x512_S512x512_S1024x512_1_0_0_1_n_n none l r (ix2 p q)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-! ## The body's stages -/

variable (v0 : Vec Ideal S1024x512 .f32) (v2 : Vec Ideal S1x512 .f32) (v10 : Vec Ideal S512x512 .bf16)
  (v13 : Vec Ideal S1x512 .f32) (v27 : Vec Ideal S512x512 .bf16) (v30 : Vec Ideal S1x512 .f32)

/-- The block's rows, each entry times its feature's reciprocal length scale. -/
def scaledRows : FVec Ideal S1024x512 .f32 :=
  mulf (shapeCast S1024x512 v0 shapeCasts_S1024x512_S1024x512 : FVec Ideal S1024x512 .f32)
    (broadcastTo S1024x512 (shapeCast S1x512 v2 shapeCasts_S1x512_S1x512 : FVec Ideal S1x512 .f32) broadcasts_S1x512_S1024x512)

theorem scaledRows_apply (p : Fin 1024) (d : Fin 512) : scaledRows v0 v2 (ix2 p d) = v0 (ix2 p d) * v2 (ix2 0 d) := by
  unfold scaledRows
  rw [mulf_apply, bcastRow_apply, shapeCast_self, shapeCast_self]

/-- Each scaled row's squared norm, broadcast across the centres. -/
def rowNorms : FVec Ideal S1024x512 .f32 :=
  broadcastTo S1024x512 (shapeCast S1024x1 (multiReduction (F := Ideal) .add [1] S1024 (mulf (scaledRows v0 v2) (scaledRows v0 v2)) 0x00000000#32 reduces_S1024x512_S1024 (.inl rfl) rfl) shapeCasts_S1024_S1024x1 : FVec Ideal S1024x1 .f32) broadcasts_S1024x1_S1024x512

theorem rowNorms_apply (p : Fin 1024) (k : Fin 512) :
    rowNorms v0 v2 (ix2 p k) = ∑ d : Fin 512, scaledRows v0 v2 (ix2 p d) * scaledRows v0 v2 (ix2 p d) := by
  unfold rowNorms
  rw [bcastCol_apply, colCast_apply]
  exact rowSum_apply _ _ _ p

/-- The cross term: scaled rows against the block of transposed scaled centres. -/
def crossTerms : FVec Ideal S1024x512 .f32 :=
  matmul dot_S1024x512_S512x512_S1024x512_1_0_0_1_n_n none (truncf .bf16 (scaledRows v0 v2) bitsLt_bf16_f32)
    (shapeCast S512x512 v10 shapeCasts_S512x512_S512x512 : FVec Ideal S512x512 .bf16) (constant (F := Ideal) S1024x512 .f32 0x00000000#32)

theorem crossTerms_apply (p : Fin 1024) (k : Fin 512) :
    crossTerms v0 v2 v10 (ix2 p k) = ∑ d : Fin 512, scaledRows v0 v2 (ix2 p d) * v10 (ix2 d k) := by
  unfold crossTerms
  rw [product_apply, shapeCast_self]
  rfl

/-- The radial features of the block's rows against every centre. -/
def features : FVec Ideal S1024x512 .f32 :=
  exp (mulf (broadcast S1024x512 (Scalar.ofBits (F := Ideal) .f32 0xBF000000#32))
    (maximumf
      (subf (addf (rowNorms v0 v2) (broadcastTo S1024x512 (shapeCast S1x512 v13 shapeCasts_S1x512_S1x512 : FVec Ideal S1x512 .f32) broadcasts_S1x512_S1024x512))
        (mulf (broadcast S1024x512 (Scalar.ofBits (F := Ideal) .f32 0x40000000#32)) (crossTerms v0 v2 v10)))
      (broadcast S1024x512 (Scalar.ofBits (F := Ideal) .f32 0x00000000#32))))

theorem features_apply (p : Fin 1024) (k : Fin 512) :
    features v0 v2 v10 v13 (ix2 p k)
      = Ideal.exp (negHalf * max (((∑ d : Fin 512, scaledRows v0 v2 (ix2 p d) * scaledRows v0 v2 (ix2 p d)) + v13 (ix2 0 k))
          - two * ∑ d : Fin 512, scaledRows v0 v2 (ix2 p d) * v10 (ix2 d k)) zero32) := by
  unfold features
  show Ideal.exp (negHalf * max ((rowNorms v0 v2 (ix2 p k)
      + broadcastTo S1024x512 (shapeCast S1x512 v13 shapeCasts_S1x512_S1x512 : FVec Ideal S1x512 .f32) broadcasts_S1x512_S1024x512 (ix2 p k))
      - two * crossTerms v0 v2 v10 (ix2 p k)) zero32) = _
  rw [rowNorms_apply, bcastRow_apply, shapeCast_self, crossTerms_apply]

/-- The stored value: the features projected, plus the bias row. -/
def stored : FVec Ideal S1024x512 .f32 :=
  addf (matmul dot_S1024x512_S512x512_S1024x512_1_0_0_1_n_n none (truncf .bf16 (features v0 v2 v10 v13) bitsLt_bf16_f32)
      (shapeCast S512x512 v27 shapeCasts_S512x512_S512x512 : FVec Ideal S512x512 .bf16) (constant (F := Ideal) S1024x512 .f32 0x00000000#32))
    (broadcastTo S1024x512 (shapeCast S1x512 v30 shapeCasts_S1x512_S1x512 : FVec Ideal S1x512 .f32) broadcasts_S1x512_S1024x512)

/-- The body's payload is that chain of stages. -/
theorem payload_eq : k0_pay1 (F := Ideal) v0 v2 v10 v13 v27 v30 = stored v0 v2 v10 v13 v27 v30 := rfl

/-- THE STORED VALUE AT `(p, q)`, given what the loaded blocks hold: the scaled rows `u`, the transposed scaled centres
    `cs` with their squared norms, the transposed projection matrix `W` and the bias `B`. -/
theorem payload_apply (u : Fin 1024 → Fin 512 → EReal) (cs : Fin 512 → Fin 512 → EReal)
    (W : Square.Idx → EReal) (B : Feat.Idx → EReal)
    (hu : ∀ p d, v0 (ix2 p d) * v2 (ix2 0 d) = u p d)
    (hc : ∀ d k, v10 (ix2 d k) = cs k d)
    (hn : ∀ k, v13 (ix2 0 k) = ∑ d : Fin 512, cs k d * cs k d)
    (hw : ∀ k q, v27 (ix2 k q) = W (ix2 q k))
    (hb : ∀ q, v30 (ix2 0 q) = B (ix1 q))
    (p : Fin 1024) (q : Fin 512) :
    k0_pay1 (F := Ideal) v0 v2 v10 v13 v27 v30 (ix2 p q)
      = (∑ k : Fin 512, feature (u p) (cs k) * W (ix2 q k)) + B (ix1 q) := by
  rw [payload_eq]
  unfold stored
  rw [addf_apply, product_apply, bcastRow_apply, shapeCast_self, shapeCast_self, hb]
  refine congrArg (· + B (ix1 q)) (Finset.sum_congr rfl fun k _ => ?_)
  rw [truncf_apply, hw, features_apply]
  unfold feature sqDist
  simp only [scaledRows_apply, hu, hc, hn]

end Cert.Rbf.Body

end
-- ==== Proof.HostPre.lean ====
/-
  What the kernel's region finds in each window's array: the host lines before the region, as functions of the five
  argument arrays, each read at an entry.

  The reciprocal row holds `1 / ℓ` per feature (the literal one is the extended real 1); the scaled centres are the
  centres times that row; their transpose, reformatted, is the cross term's right operand; the centre norms are the
  host's sums of squares along the features, kept as a row; the projection matrix is transposed; the bias is a row.
-/
import proofs.«134871_j61186104098901_1_alg».proof.Proof.Gen.KernelIdeal.Frame
import proofs.«134871_j61186104098901_1_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

namespace Cert.Rbf.Host

open Idealize.ShloMosaic Idealize.ShloMosaic.TcCoe Idealize.ShloMosaic.ValueIdx Idealize.SL.Sem
open Cert.KernelIdeal Cert.KernelIdeal.Gen

local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))

/-! ## The host lines as functions of the arguments -/

section Stages

variable (x0 : FVec Ideal S4x8192x512 .f32) (x1 : FVec Ideal S512x512 .f32) (x2 : FVec Ideal S512 .f32)
  (x3 : FVec Ideal S512x512 .f32) (x4 : FVec Ideal S512 .f32)

/-- The input flattened to rows. -/
def flat : FVec Ideal S32768x512 .f32 := shapeCast _ x0 shapeCasts_S4x8192x512_S32768x512

/-- The reciprocals of the length scales, as a row. -/
def recipRow : FVec Ideal S1x512 .f32 :=
  shapeCast _ (Host.divf (F := Ideal) (broadcastInDim S512 ![] bcast_S_S512 (constant (F := Ideal) S_ .f32 0x3F800000#32)) x2) shapeCasts_S512_S1x512

/-- The centres, each entry times its feature's reciprocal. -/
def scaledCentres : FVec Ideal S512x512 .f32 :=
  mulf (F := Ideal) x1 (broadcastInDim S512x512 ![0, 1] bcast_S1x512_S512x512_0_1 (recipRow x2))

/-- The squared norms of the scaled centres, as a row. -/
def centreNorms : FVec Ideal S1x512 .f32 :=
  shapeCast _ (broadcastInDim S512x1 ![0] bcast_S512_S512x1_0
    (Host.reduceAdd (F := Ideal) (mulf (F := Ideal) (scaledCentres x1 x2) (scaledCentres x1 x2)) (constant (F := Ideal) S_ .f32 0x00000000#32) reducesTo_S512x512_S512_d1 h_S_))
    shapeCasts_S512x1_S1x512

/-- The scaled centres transposed, in the product's format. -/
def centresT : FVec Ideal S512x512 .bf16 :=
  truncf (F := Ideal) .bf16 (transpose S512x512 [1, 0] (scaledCentres x1 x2) transposes_S512x512_S512x512_1_0) bitsLt_bf16_f32

/-- The projection matrix transposed, in the product's format. -/
def projT : FVec Ideal S512x512 .bf16 :=
  truncf (F := Ideal) .bf16 (transpose S512x512 [1, 0] x3 transposes_S512x512_S512x512_1_0) bitsLt_bf16_f32

/-- The bias as a row. -/
def biasRow : FVec Ideal S1x512 .f32 := shapeCast _ x4 shapeCasts_S512_S1x512

/-! ## Each read at an entry -/

/-- A vector `[512]` recast as a row `[1, 512]`. -/
theorem rowCast_apply {α : Type} (v : S512.Idx → α) (d : Fin 512) :
    shapeCast S1x512 v shapeCasts_S512_S1x512 (ix2 0 d) = v (ix1 d) :=
  shapeCast_apply v shapeCasts_S512_S1x512 (ix2 0 d) (ix1 d)
    (by rewrite [Shape.rowMajor_val_one, Shape.rowMajor_val_two]; show d.val = 0 * 512 + d.val; omega)

theorem recipRow_apply (d : Fin 512) : recipRow x2 (ix2 0 d) = Ideal.div 1 (x2 (ix1 d)) := by
  unfold recipRow
  rw [rowCast_apply]
  show Ideal.div (broadcastInDim S512 ![] bcast_S_S512 (constant (F := Ideal) S_ .f32 0x3F800000#32) (ix1 d)) (x2 (ix1 d)) = _
  rw [broadcastInDim_apply _ bcast_S_S512 (constant (F := Ideal) S_ .f32 0x3F800000#32) (ix1 d) ix0 (fun a => a.elim0), constant_apply,
    Ideal.ofBits_one_f32]

theorem scaledCentres_apply (k d : Fin 512) : scaledCentres x1 x2 (ix2 k d) = scaleByRecip x1 x2 k d := by
  unfold scaledCentres
  rw [mulf_apply, broadcastInDim_apply _ bcast_S1x512_S512x512_0_1 (recipRow x2) (ix2 k d) (ix2 0 d) (fun a => match a with
    | ⟨0, _⟩ => by show (0 : Nat) = if (1 : Nat) = 1 then 0 else _; rw [if_pos rfl]
    | ⟨1, _⟩ => by show d.val = if (512 : Nat) = 1 then 0 else _; rw [if_neg (by decide)]; rfl), recipRow_apply]
  rfl

/-- The host's sum of a square array along its second axis, from the zero word: the plain sum of row `k`. -/
theorem hostRowSum_apply (y : FVec Ideal S512x512 .f32) (k : Fin 512) :
    Host.reduceAdd (F := Ideal) y (constant (F := Ideal) S_ .f32 0x00000000#32) reducesTo_S512x512_S512_d1 h_S_ (ix1 k)
      = ∑ d : Fin 512, y (ix2 k d) := by
  simp only [Host.reduceAdd, Ideal.hostReduceAdd_def]
  rw [Ideal.hostReduceAdd_single reducesTo_S512x512_S512_d1 (by decide)]
  show Ideal.ofBits .f32 0x00000000#32 + _ = _
  rw [Ideal.ofBits_zero_f32, zero_add]
  refine Finset.sum_congr rfl fun d _ => ?_
  exact congrArg y (funext fun a => Fin.ext (by match a with | ⟨0, _⟩ => rfl | ⟨1, _⟩ => rfl))

theorem centreNorms_apply (k : Fin 512) :
    centreNorms x1 x2 (ix2 0 k) = ∑ d : Fin 512, scaleByRecip x1 x2 k d * scaleByRecip x1 x2 k d := by
  unfold centreNorms
  rw [shapeCast_apply _ shapeCasts_S512x1_S1x512 (ix2 0 k) (ix2 k 0)
      (by rewrite [Shape.rowMajor_val_two, Shape.rowMajor_val_two]; show k.val * 1 + 0 = 0 * 512 + k.val; omega),
    broadcastInDim_apply _ bcast_S512_S512x1_0 _ (ix2 k 0) (ix1 k) (fun a => match a with
      | ⟨0, _⟩ => by show k.val = if (512 : Nat) = 1 then 0 else _; rw [if_neg (by decide)]; rfl),
    hostRowSum_apply]
  refine Finset.sum_congr rfl fun d _ => ?_
  rw [mulf_apply, scaledCentres_apply]

theorem centresT_apply (d k : Fin 512) : centresT x1 x2 (ix2 d k) = scaleByRecip x1 x2 k d := by
  unfold centresT
  rw [truncf_apply, transpose_apply [1, 0] (scaledCentres x1 x2) transposes_S512x512_S512x512_1_0 (ix2 d k) (ix2 k d) (fun b => match b with
    | ⟨0, _⟩ => rfl
    | ⟨1, _⟩ => rfl), scaledCentres_apply]

theorem projT_apply (k j : Fin 512) : projT x3 (ix2 k j) = x3 (ix2 j k) := by
  unfold projT
  rw [truncf_apply, transpose_apply [1, 0] x3 transposes_S512x512_S512x512_1_0 (ix2 k j) (ix2 j k) (fun b => match b with
    | ⟨0, _⟩ => rfl
    | ⟨1, _⟩ => rfl)]

theorem biasRow_apply (j : Fin 512) : biasRow x4 (ix2 0 j) = x4 (ix1 j) := rowCast_apply x4 j

end Stages

/-! ## The arrays as the region finds them -/

variable (m : (ℓ : Loc nD τ sig) → Buf (Elt Ideal) ℓ)

theorem V_rows (c : Dev nD) : V m c main_v0 = flat (m ((c : Thread nD τ).loc main_arg0)) := by
  show StableHlo.after hostOps0 (fun b => m (c, b)) (Proc.devRef .tc main_v0) = _
  after_results; rfl

theorem V_recipRow (c : Dev nD) : V m c main_v3 = recipRow (m ((c : Thread nD τ).loc main_arg2)) := by
  show StableHlo.after hostOps0 (fun b => m (c, b)) (Proc.devRef .tc main_v3) = _
  after_results; rfl

theorem V_centreNorms (c : Dev nD) :
    V m c main_v9 = centreNorms (m ((c : Thread nD τ).loc main_arg1)) (m ((c : Thread nD τ).loc main_arg2)) := by
  show StableHlo.after hostOps0 (fun b => m (c, b)) (Proc.devRef .tc main_v9) = _
  after_results; rfl

theorem V_centresT (c : Dev nD) :
    V m c main_v11 = centresT (m ((c : Thread nD τ).loc main_arg1)) (m ((c : Thread nD τ).loc main_arg2)) := by
  show StableHlo.after hostOps0 (fun b => m (c, b)) (Proc.devRef .tc main_v11) = _
  after_results; rfl

theorem V_projT (c : Dev nD) : V m c main_v13 = projT (m ((c : Thread nD τ).loc main_arg3)) := by
  show StableHlo.after hostOps0 (fun b => m (c, b)) (Proc.devRef .tc main_v13) = _
  after_results; rfl

theorem V_biasRow (c : Dev nD) : V m c main_v14 = biasRow (m ((c : Thread nD τ).loc main_arg4)) := by
  show StableHlo.after hostOps0 (fun b => m (c, b)) (Proc.devRef .tc main_v14) = _
  after_results; rfl

end Cert.Rbf.Host

end
-- ==== Proof.Blocks.lean ====
/-
  From the blocks to the array: what the kernel's output array holds after the run.

  The grid has 32 points; point `t` reads rows `1024·t … 1024·t + 1023` of the flattened input and the whole of the five
  small operands (their block index is always zero), and writes the same rows of the output. So the entry `(p, q)` of
  what point `t` writes back is the spec's value at row `1024·t + p`, channel `q`, with the scaled rows, the scaled
  centres and their norms, the transposed projection matrix and the bias read off the operands as the region finds them;
  and every row `r` of the output lies in the block of point `r / 1024`, so the blocks cover the array.
-/
import proofs.«134871_j61186104098901_1_alg».proof.Proof.Gen.KernelIdeal.Frame
import proofs.«134871_j61186104098901_1_alg».proof.Proof.Payload
import proofs.«134871_j61186104098901_1_alg».proof.Proof.HostPre
import Idealize.ShloMosaic.Lib.Pipeline.Value

set_option maxRecDepth 16384

noncomputable section

namespace Cert.Rbf.Kern

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The five arguments on core `c`. -/
abbrev aX (c : Dev nD) : FVec Ideal S4x8192x512 .f32 := m ((c : Thread nD τ).loc main_arg0)
abbrev aC (c : Dev nD) : FVec Ideal S512x512 .f32 := m ((c : Thread nD τ).loc main_arg1)
abbrev aL (c : Dev nD) : FVec Ideal S512 .f32 := m ((c : Thread nD τ).loc main_arg2)
abbrev aW (c : Dev nD) : FVec Ideal S512x512 .f32 := m ((c : Thread nD τ).loc main_arg3)
abbrev aB (c : Dev nD) : FVec Ideal S512 .f32 := m ((c : Thread nD τ).loc main_arg4)

/-- What the output array is to hold: the spec's function, entries scaled by the reciprocal, of the flattened input. -/
def rowsOut (c : Dev nD) : FVec Ideal S32768x512 .f32 :=
  viaRecip (Host.flat (aX m c)) (aC m c) (aL m c) (aW m c) (aB m c)

theorem hz : (![0, 0] : Fin 2 → Nat) = fun _ => 0 := funext fun a => by fin_cases a <;> rfl

/-- The printed index maps over the grid: the input rows and the output rows move with the point, every other window
    stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the flattened input that entry `p` of point `t`'s block is. -/
def rowOf (t : Fin cfg0.N) (p : Fin 1024) : Fin 32768 :=
  ⟨t.val * 1024 + p.val, by have h : t.val < grid0.N := t.isLt; rw [N_0] at h; have := p.isLt; omega⟩

/-! ## Each window's block at a point, read at an entry -/

theorem blk_rows (c : Dev nD) (t : Fin cfg0.N) (p : Fin 1024) (d : Fin 512) :
    iblk m c 0 t (ix2 p d) = V m c main_v0 (ix2 (rowOf t p) d) := by
  obtain ⟨e0, e1, -⟩ := idx_facts t
  show V m c main_v0 (((cfg0.win 0).blk t).view.emb (ix2 p d)) = _
  refine congrArg (V m c main_v0) (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * d.val = d.val; omega

theorem blk_centresT (c : Dev nD) (t : Fin cfg0.N) (d k : Fin 512) :
    iblk m c 1 t (ix2 d k) = V m c main_v11 (ix2 d k) := by
  obtain ⟨-, -, e0, e1, -⟩ := idx_facts t
  show V m c main_v11 (((cfg0.win 1).blk t).view.emb (ix2 d k)) = _
  refine congrArg (V m c main_v11) (funext fun a => Fin.ext ?_)
  match a with
  | ⟨0, _⟩ => show win0_1.index t (0 : Fin 2) * 512 + 1 * d.val = d.val; omega
  | ⟨1, _⟩ => show win0_1.index t (1 : Fin 2) * 512 + 1 * k.val = k.val; omega

theorem blk_centreNorms (c : Dev nD) (t : Fin cfg0.N) (k : Fin 512) :
    iblk m c 2 t (ix2 0 k) = V m c main_v9 (ix2 0 k) := by
  obtain ⟨-, -, -, -, e0, e1, -⟩ := idx_facts t
  show V m c main_v9 (((cfg0.win 2).blk t).view.emb (ix2 0 k)) = _
  refine congrArg (V m c main_v9) (funext fun a => Fin.ext ?_)
  match a with
  | ⟨0, _⟩ => show win0_2.index t (0 : Fin 2) * 1 + 1 * 0 = 0; omega
  | ⟨1, _⟩ => show win0_2.index t (1 : Fin 2) * 512 + 1 * k.val = k.val; omega

theorem blk_projT (c : Dev nD) (t : Fin cfg0.N) (k j : Fin 512) :
    iblk m c 3 t (ix2 k j) = V m c main_v13 (ix2 k j) := by
  obtain ⟨-, -, -, -, -, -, e0, e1, -⟩ := idx_facts t
  show V m c main_v13 (((cfg0.win 3).blk t).view.emb (ix2 k j)) = _
  refine congrArg (V m c main_v13) (funext fun a => Fin.ext ?_)
  match a with
  | ⟨0, _⟩ => show win0_3.index t (0 : Fin 2) * 512 + 1 * k.val = k.val; omega
  | ⟨1, _⟩ => show win0_3.index t (1 : Fin 2) * 512 + 1 * j.val = j.val; omega

theorem blk_bias (c : Dev nD) (t : Fin cfg0.N) (j : Fin 512) :
    iblk m c 4 t (ix2 0 j) = V m c main_v14 (ix2 0 j) := by
  obtain ⟨-, -, -, -, -, -, -, -, e0, e1, -⟩ := idx_facts t
  show V m c main_v14 (((cfg0.win 4).blk t).view.emb (ix2 0 j)) = _
  refine congrArg (V m c main_v14) (funext fun a => Fin.ext ?_)
  match a with
  | ⟨0, _⟩ => show win0_4.index t (0 : Fin 2) * 1 + 1 * 0 = 0; omega
  | ⟨1, _⟩ => show win0_4.index t (1 : Fin 2) * 512 + 1 * j.val = j.val; omega

theorem blk_recip (c : Dev nD) (t : Fin cfg0.N) (d : Fin 512) :
    iblk m c 5 t (ix2 0 d) = V m c main_v3 (ix2 0 d) := by
  obtain ⟨-, -, -, -, -, -, -, -, -, -, e0, e1, -⟩ := idx_facts t
  show V m c main_v3 (((cfg0.win 5).blk t).view.emb (ix2 0 d)) = _
  refine congrArg (V m c main_v3) (funext fun a => Fin.ext ?_)
  match a with
  | ⟨0, _⟩ => show win0_5.index t (0 : Fin 2) * 1 + 1 * 0 = 0; omega
  | ⟨1, _⟩ => show win0_5.index t (1 : Fin 2) * 512 + 1 * d.val = d.val; omega

/-- Where entry `(p, q)` of point `t`'s output block lies in the array. -/
theorem emb_out (t : Fin cfg0.N) (p : Fin 1024) (q : Fin 512) :
    ((cfg0.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win0_6.index t (0 : Fin 2) * 1024 + 1 * p.val = t.val * 1024 + p.val; omega
  | ⟨1, _⟩ => show win0_6.index t (1 : Fin 2) * 512 + 1 * q.val = q.val; omega

/-! ## What a point writes back -/

/-- WHAT POINT `t` WRITES BACK is block `t` of `rowsOut`. -/
theorem flushed_eq (c : Dev nD) (t : Fin cfg0.N) :
    (dats m 0 c).flushed 6 t = ((cfg0.win 6).blk t).view.read (Elt Ideal) (rowsOut m c) := by
  show (cfg0.win 6).cut (grid0.coords t) ((dats m 0 c).after 6 t) = _
  rw [after0_6]
  unfold out0_6
  rw [View.canon_unit_zero hz]
  simp only [View.ld_unit_zero (S := S1024x512) hz, View.ld_unit_zero (S := S1x512) hz, View.ld_unit_zero (S := S512x512) hz]
  funext j
  obtain ⟨p, q, rfl⟩ : ∃ (p : Fin 1024) (q : Fin 512), j = ix2 p q := ⟨j 0, j 1, eq_ix2 j⟩
  show k0_pay1 (F := Ideal) (iblk m c 0 t) (iblk m c 5 t) (iblk m c 1 t) (iblk m c 2 t) (iblk m c 3 t) (iblk m c 4 t) (ix2 p q)
    = rowsOut m c (((cfg0.win 6).blk t).view.emb (ix2 p q))
  rw [emb_out]
  exact Body.payload_apply (iblk m c 0 t) (iblk m c 5 t) (iblk m c 1 t) (iblk m c 2 t) (iblk m c 3 t) (iblk m c 4 t)
    (fun p' => scaleByRecip (Host.flat (aX m c)) (aL m c) (rowOf t p')) (scaleByRecip (aC m c) (aL m c)) (aW m c) (aB m c)
    (fun p' d => by rw [blk_rows, blk_recip, Host.V_rows, Host.V_recipRow, Host.recipRow_apply]; rfl)
    (fun d k => by rw [blk_centresT, Host.V_centresT, Host.centresT_apply])
    (fun k => by rw [blk_centreNorms, Host.V_centreNorms, Host.centreNorms_apply])
    (fun k j => by rw [blk_projT, Host.V_projT, Host.projT_apply])
    (fun j => by rw [blk_bias, Host.V_biasRow, Host.biasRow_apply])
    p q

/-! ## The blocks cover the array -/

/-- An index of the array is in point `t`'s block iff each coordinate is in the block's range on its axis. -/
theorem mem_blk (t : Fin cfg0.N) (i : S32768x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v15).slice (win0_6.rect t)).set ↔ _
  rw [View.set_slice_whole, Rect.mem_set_unit]
  exact Iff.rfl

/-- Row `r` is written by point `r / 1024`. -/
theorem cover (i : S32768x512.Idx) :
    ∃ t : Fin cfg0.N, (cfg0.win 6).flush t = true ∧ i ∈ ((cfg0.win 6).blk t).view.set := by
  have h0 : (i 0).val < 32768 := (i 0).isLt
  have h1 : (i 1).val < 512 := (i 1).isLt
  have hlt : (i 0).val / 1024 < cfg0.N := by show _ < grid0.N; rw [N_0]; omega
  obtain ⟨-, -, -, -, -, -, -, -, -, -, -, -, e0, e1⟩ := idx_facts ⟨(i 0).val / 1024, hlt⟩
  have e0' : win0_6.index ⟨(i 0).val / 1024, hlt⟩ (0 : Fin 2) = (i 0).val / 1024 := e0
  refine ⟨⟨(i 0).val / 1024, hlt⟩, flush0_6 _, ?_⟩
  rw [mem_blk]
  intro a
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    omega
  | ⟨1, _⟩ =>
    show win0_6.index ⟨(i 0).val / 1024, hlt⟩ (1 : Fin 2) * 512 ≤ (i 1).val ∧ (i 1).val < win0_6.index ⟨(i 0).val / 1024, hlt⟩ (1 : Fin 2) * 512 + 512
    omega

/-- THE OUTPUT ARRAY after the run holds `rowsOut`. -/
theorem final (c : Dev nD) : (dats m 0 c).arrAt 6 cfg0.N = rowsOut m c :=
  (dats m 0 c).arrAt_eq_of_cover 6 (rowsOut m c) (fun t _ => flushed_eq m c t) cover

end Cert.Rbf.Kern

end
-- ==== Proof.KernelRun.lean ====
/-
  The kernel's run with its result named.

  After the region the program reshapes the output array `[32768, 512]` back to `[4, 8192, 512]`. The frame run leaves
  every buffer that is no window's array at what the lines after the region compute from the arrays the region left;
  the result buffer is therefore that reshape of the output array, which holds the spec's function of the flattened
  input. The five arguments are written by no line and end as launched.
-/
import proofs.«134871_j61186104098901_1_alg».proof.Proof.Blocks
import Idealize.ShloMosaic.Lib.StableHlo.Run

set_option maxRecDepth 16384

noncomputable section

namespace Cert.Rbf.Kern

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel's result: the output rows, reshaped. -/
def result (c : Dev nD) : FVec Ideal S4x8192x512 .f32 :=
  shapeCast _ (rowsOut m c) shapeCasts_S32768x512_S4x8192x512

/-- The line after the region reshapes the array the region left. -/
theorem tail_eq (c : Dev nD) :
    Pipeline.afterTail₀ cfgs (dats m) 0 (V0 m) [hostOps1] c main_v16 = result m c := by
  have e := (Pipeline.withArrays_arr spec0 launch0.win.arr_inj c (V0 m c) (fun w => (dats m 0 c).arrAt w cfg0.N) 6).trans (final m c)
  unfold Pipeline.afterTail₀
  show StableHlo.after hostOps1 _ (Proc.devRef .tc main_v16) = _
  after_results
  exact congrArg (fun A : FVec Ideal S32768x512 .f32 => (shapeCast _ A shapeCasts_S32768x512_S4x8192x512 : FVec Ideal S4x8192x512 .f32)) e

/-- Every weakly fair execution of the kernel's program terminates with the result buffer at `result` and the
    arguments unchanged. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Rbf.Kern

end
-- ==== Proof.PreFacts.lean ====
/-
  What the precondition gives the proof: every length scale is nonzero.

  The printed precondition is a conjunction of `jnp.all`s (each a reduce by `and` over a comparison); its last conjunct
  compares every length scale with the zero word for inequality. A conjunction that is one has every conjunct one, an
  `all` that is one has a one at every index, and on the extended reals the comparison is the plain `≠`.
  (The finiteness conjuncts are not used: off zero, dividing is multiplying by the reciprocal on all of the extended reals.)
-/
import proofs.«134871_j61186104098901_1_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Rbf.Pre

open Idealize.ShloMosaic Idealize.ShloMosaic.ValueIdx
open Cert.Pre_finite_inputs

/-- The rank-0 shape has one index. -/
instance : Subsingleton S_.Idx := ⟨fun _ _ => funext fun d => d.elim0⟩

variable [Cert.Pre_finite_inputs.Facts]
open Cert.Pre_finite_inputs.Facts

/-- Under the precondition no length scale is zero. -/
theorem lengthscale_ne_zero (a0 : FVec Ideal S4x8192x512 .f32) (a1 : FVec Ideal S512x512 .f32) (a2 : FVec Ideal S512 .f32)
    (a3 : FVec Ideal S512x512 .f32) (a4 : FVec Ideal S512 .f32)
    (h : Cert.Pre_finite_inputs.fn (F := Ideal) a0 a1 a2 a3 a4 = fun _ => 1#1) (d : Fin 512) : a2 (ix1 d) ≠ 0 := by
  have h1 := congrFun h ix0
  dsimp only [Cert.Pre_finite_inputs.fn, Cert.Pre_finite_inputs.fn_part1] at h1
  obtain ⟨-, h2⟩ := IntOp.andi_eq_one.1 h1
  have h3 := Host.reduce_andi_all _ _ _ _ _ h2 (ix1 d)
  rw [cmpf_apply, broadcastInDim_apply _ bcast_S_S512 (constant (F := Ideal) S_ .f32 0x00000000#32) (ix1 d) ix0 (fun a => a.elim0),
    constant_apply, Ideal.ofBits_zero_f32, Ideal.cmpf_def] at h3
  unfold Ideal.cmp at h3
  intro h0
  rw [h0] at h3
  simp at h3

end Cert.Rbf.Pre

end
-- ==== Proof.lean ====
/-
  The kernel computes, per block of 1024 rows of the flattened input, radial features against 512 centres followed by
  a linear projection; the reference computes the same over the whole array on the host. Both are, before a final
  reshape, one function of scaled entries (Proof/Spec.lean): the squared distance of a scaled row to a scaled centre by
  its cross-term expansion, clamped at zero, `exp (-1/2 · )` of it, the features contracted against the rows of the
  projection matrix, plus the bias. On the extended reals a change of float format is the identity, the matrix unit's
  product into a zero accumulator and the host's product are the same sum, and so are the kernel's lane sum and the
  host's sum from zero. The ONE difference: the kernel scales an entry by MULTIPLYING with the reciprocal `1 / ℓ` of its
  feature's length scale, the reference by DIVIDING by `ℓ`. Off zero both are the product with `ℓ⁻¹`; at `ℓ = 0` they
  differ (`0 / 0` against `0 · (1 / 0)`), so the precondition asks every length scale to be nonzero, the domain on which
  the reference's own division is defined. Finiteness of the inputs is not used.

  The three frames: the kernel's two are the generated frames; the reference's is its generated run with the result
  dropped. No rewrite was made when the kernel was idealized, so there is nothing to preserve. The value claim: the
  kernel's run with its result named (Proof/KernelRun.lean, over Proof/Blocks.lean, Proof/Payload.lean and
  Proof/HostPre.lean), the reference's run read stage by stage (Proof/RefValue.lean), and the two functions equal under
  the nonzero length scales the precondition gives (Proof/PreFacts.lean).
-/
import proofs.«134871_j61186104098901_1_alg».proof.Defs
import proofs.«134871_j61186104098901_1_alg».proof.Proof.Gen.Kernel
import proofs.«134871_j61186104098901_1_alg».proof.Proof.Gen.Kernel.Skeleton
import proofs.«134871_j61186104098901_1_alg».proof.Proof.Gen.Kernel.Launch
import proofs.«134871_j61186104098901_1_alg».proof.Proof.Gen.Kernel.Points
import proofs.«134871_j61186104098901_1_alg».proof.Proof.Gen.Kernel.Frame
import proofs.«134871_j61186104098901_1_alg».proof.Proof.Gen.KernelIdeal
import proofs.«134871_j61186104098901_1_alg».proof.Proof.Gen.KernelIdeal.Skeleton
import proofs.«134871_j61186104098901_1_alg».proof.Proof.Gen.KernelIdeal.Launch
import proofs.«134871_j61186104098901_1_alg».proof.Proof.Gen.KernelIdeal.Points
import proofs.«134871_j61186104098901_1_alg».proof.Proof.Gen.KernelIdeal.Frame
import proofs.«134871_j61186104098901_1_alg».proof.Proof.Gen.ReferenceIdeal
import proofs.«134871_j61186104098901_1_alg».proof.Proof.Gen.ReferenceIdeal.Run
import proofs.«134871_j61186104098901_1_alg».proof.Proof.Gen.ReferenceIdeal.Read
import proofs.«134871_j61186104098901_1_alg».proof.Proof.Gen.Pre_finite_inputs
import proofs.«134871_j61186104098901_1_alg».proof.Proof.Spec
import proofs.«134871_j61186104098901_1_alg».proof.Proof.RefValue
import proofs.«134871_j61186104098901_1_alg».proof.Proof.KernelRun
import proofs.«134871_j61186104098901_1_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end, from memories that agree on the arguments, with the reshaped spec function of the flattened
    input: the kernel's with entries scaled by the reciprocal, the reference's with entries divided, one function where
    no length scale is zero. -/
theorem algebraic : Cert.algebraic_KernelIdeal_ReferenceIdeal := by
  intro m ρ m' ρ' hpre hagree
  refine ⟨fun c => Cert.Rbf.Kern.result m c, Cert.Rbf.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq]
  unfold Cert.ReferenceIdeal.Read.val_main_v31
  rw [Cert.Rbf.Ref.result_eq, (hagree c).1, (hagree c).2.1, (hagree c).2.2.1, (hagree c).2.2.2.1, (hagree c).2.2.2.2]
  have hL : ∀ d : Fin 512, Cert.Rbf.Kern.aL m c (ValueIdx.ix1 d) ≠ 0 :=
    fun d => Cert.Rbf.Pre.lengthscale_ne_zero _ _ _ _ _ (hpre c) d
  show _ = Cert.Rbf.Kern.result m c
  unfold Cert.Rbf.Kern.result Cert.Rbf.Kern.rowsOut
  rw [Cert.Rbf.viaRecip_eq_viaDiv _ _ _ _ _ hL]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
